-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072x384 : Shape := ⟨2, ![131072, 384]⟩
abbrev S128x384 : Shape := ⟨2, ![128, 384]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S131072x384 : S_.BroadcastsInDim S131072x384 (![] : Fin 0 → Fin S131072x384.rank)
  reducesTo_S131072x384_S_d0_1 : S131072x384.ReducesTo [0, 1] S_
  bcast_S_S128x384 : S_.BroadcastsInDim S128x384 (![] : Fin 0 → Fin S128x384.rank)
  reducesTo_S128x384_S_d0_1 : S128x384.ReducesTo [0, 1] S_

variable [Facts]

def fn {F : FTy → Type} [FloatOps F] (main_arg0 : FVec F S131072x128 .f32) (main_arg1 : FVec F S131072x384 .f32) (main_arg2 : FVec F S128x384 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x384 .f32 := Host.absf main_arg1
  let main_cst_0 : FVec F S_ .f32 := constant S_ .f32 0x7F800000#32
  let main_v5 : FVec F S131072x384 .f32 := broadcastInDim S131072x384 ![] bcast_S_S131072x384 main_cst_0
  let main_v6 : IVec S131072x384 1 := cmpf .olt main_v4 main_v5
  let main_c_1 : IVec S_ 1 := constantI S_ 1 1#1
  let main_v7 : IVec S_ 1 := (fun x v => Host.reduce IntOp.andi x v reducesTo_S131072x384_S_d0_1 h_S_) main_v6 main_c_1
  let main_v8 : IVec S_ 1 := andi main_v3 main_v7
  let main_v9 : FVec F S128x384 .f32 := Host.absf main_arg2
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  main_v13
-- ==== Kernel.lean ====
abbrev S131072x128 : Shape := ⟨2, ![131072, 128]⟩
abbrev S131072x384 : Shape := ⟨2, ![131072, 384]⟩
abbrev S128x384 : Shape := ⟨2, ![128, 384]⟩
abbrev S4096x128 : Shape := ⟨2, ![4096, 128]⟩
abbrev S4096x384 : Shape := ⟨2, ![4096, 384]⟩
abbrev S1024x128 : Shape := ⟨2, ![1024, 128]⟩
abbrev S1024x384 : Shape := ⟨2, ![1024, 384]⟩
abbrev S1024x256 : Shape := ⟨2, ![1024, 256]⟩

abbrev nBuf : Space → Nat
  | .hbm => 6
  | .vmem => 9
  | .smem => 0
  | _ => 0

abbrev bufTy : (tb : Table) → Fin (tcTables nBuf tb) → BufTy
  | .hbm, ⟨0, _⟩ => ⟨S131072x128, .f32⟩
  | .hbm, ⟨1, _⟩ => ⟨S131072x384, .f32⟩
  | .hbm, ⟨2, _⟩ => ⟨S128x384, .f32⟩
  | .hbm, ⟨3, _⟩ => ⟨S128x384, .bf16⟩
  | .hbm, ⟨4, _⟩ => ⟨S131072x128, .f32⟩
  | .hbm, ⟨5, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S4096x384, .f32⟩
  | .local _ .vmem, ⟨3, _⟩ => ⟨S4096x384, .f32⟩
  | .local _ .vmem, ⟨4, _⟩ => ⟨S128x384, .bf16⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c1024_i32 : BitVec 32 := 1024#32
  let v3 : BitVec 32 := Scalar.muli arg6 c1024_i32
  v3
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1024_i32 : BitVec 32 := 1024#32
  let v3 : BitVec 32 := Scalar.muli arg6 c1024_i32
  let v4 : BitVec 32 := v3
  let v5 : Index := Scalar.indexCast v4
  let c0_2 : Index := 0#32
  ![v5.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1024_i32 : BitVec 32 := 1024#32
  let v3 : BitVec 32 := Scalar.muli arg6 c1024_i32
  let v4 : BitVec 32 := v3
  let v7 : Index := Scalar.indexCast v4
  let c0_3 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  h_S1024x128 : 0 < S1024x128.numel
  h_S1024x384 : 0 < S1024x384.numel
  slices_S1024x384_o0_0_S1024x128 : S1024x384.Slices ![0, 0] S1024x128
  slices_S1024x384_o0_128_S1024x256 : S1024x384.Slices ![0, 128] S1024x256
  slices_S1024x256_o0_0_S1024x128 : S1024x256.Slices ![0, 0] S1024x128
  slices_S1024x256_o0_128_S1024x128 : S1024x256.Slices ![0, 128] S1024x128
  dot_S1024x128_S128x384_S1024x384_1_0_0_1_n_n_wf : DotDims.WF S1024x128 S128x384 S1024x384 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S4096x128.size a
  k0_off2_inb : ∀ k0_t1 : Fin k0_t1_loop.trips, ∀ a, (k0_off2 k0_t1) a + S1024x384.size a ≤ S4096x384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x384.size a ≤ S131072x384.size a
  hwx0_1 : ∀ i : grid0.Coords, EltTy.bits .f32 = 32 ∨ (Rect.block (s := S131072x384) S4096x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .bf16 = 32 ∨ (Rect.block (s := S128x384) S128x384.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S131072x128.size a
  hwx0_4 : ∀ i : grid0.Coords, EltTy.bits .f32 = 32 ∨ (Rect.block (s := S131072x128) S4096x128.size (cc0_transform_4 i) (hinb0_4 i)).WholeWords (EltTy.packing .f32)

variable [Facts₀]

def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x128 : Shape := ⟨2, ![131072, 128]⟩
abbrev S131072x384 : Shape := ⟨2, ![131072, 384]⟩
abbrev S128x384 : Shape := ⟨2, ![128, 384]⟩
abbrev S131072x256 : Shape := ⟨2, ![131072, 256]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x384, .f32⟩
  | .hbm, ⟨2, _⟩ => ⟨S128x384, .f32⟩
  | .hbm, ⟨3, _⟩ => ⟨S131072x384, .f32⟩
  | .hbm, ⟨4, _⟩ => ⟨S131072x128, .f32⟩
  | .hbm, ⟨5, _⟩ => ⟨S131072x128, .f32⟩
  | .hbm, ⟨6, _⟩ => ⟨S131072x128, .f32⟩
  | .hbm, ⟨7, _⟩ => ⟨S131072x128, .f32⟩
  | .hbm, ⟨8, _⟩ => ⟨S131072x256, .f32⟩
  | .hbm, ⟨9, _⟩ => ⟨S131072x256, .f32⟩
  | .hbm, ⟨10, _⟩ => ⟨S131072x256, .f32⟩
  | .hbm, ⟨11, _⟩ => ⟨S131072x256, .f32⟩
  | .hbm, ⟨12, _⟩ => ⟨S131072x256, .f32⟩
  | .hbm, ⟨13, _⟩ => ⟨S_, .f32⟩
  | .hbm, ⟨14, _⟩ => ⟨S131072x256, .f32⟩
  | .hbm, ⟨15, _⟩ => ⟨S131072x256, .f32⟩
  | .hbm, ⟨16, _⟩ => ⟨S_, .f32⟩
  | .hbm, ⟨17, _⟩ => ⟨S131072x256, .f32⟩
  | .hbm, ⟨18, _⟩ => ⟨S131072x256, .f32⟩
  | .hbm, ⟨19, _⟩ => ⟨S131072x128, .f32⟩
  | .hbm, ⟨20, _⟩ => ⟨S131072x128, .f32⟩
  | .hbm, ⟨21, _⟩ => ⟨S_, .f32⟩
  | .hbm, ⟨22, _⟩ => ⟨S131072x128, .f32⟩
  | .hbm, ⟨23, _⟩ => ⟨S131072x128, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S131072x128, .f32⟩
  | .hbm, ⟨28, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  slices_S131072x384_S131072x128_0_0 : S131072x384.Slices ![0, 0] S131072x128
  slices_S131072x384_S131072x256_0_128 : S131072x384.Slices ![0, 128] S131072x256
  bcast_S_S131072x256 : S_.BroadcastsInDim S131072x256 (![] : Fin 0 → Fin S131072x256.rank)
  slices_S131072x256_S131072x128_0_0 : S131072x256.Slices ![0, 0] S131072x128
  slices_S131072x256_S131072x128_0_128 : S131072x256.Slices ![0, 128] S131072x128
  bcast_S_S131072x128 : S_.BroadcastsInDim S131072x128 (![] : Fin 0 → Fin S131072x128.rank)
  dot_S131072x128_S128x384_S131072x384_1_0_0_1_n_n_wf : DotDims.WF S131072x128 S128x384 S131072x384 [1] [0] [0] [1] [] []

variable [Facts₀]

def dot_S131072x128_S128x384_S131072x384_1_0_0_1_n_n : DotDims S131072x128 S128x384 S131072x384 where
  lhsContracting := [1]
  rhsContracting := [0]
  lhsNonContracting := [0]
  rhsNonContracting := [1]
  lhsBatch := []
  rhsBatch := []
  wf := dot_S131072x128_S128x384_S131072x384_1_0_0_1_n_n_wf

class Facts : Prop extends Facts₀ where

variable [Facts]
-- ==== Proof.CellSpec.lean ====
/-
  A single step of a gated recurrent cell, row by row, over the extended reals.

  For one batch row with state `h ∈ EReal^128`, input `x ∈ EReal^384` and a weight matrix `W ∈ EReal^(128×384)`,
  the pre-activation is `z_j = x_j + Σ_k h_k · W_{k j}` (`j < 384`). Its three column bands of width 128 feed the
  candidate `tanh z_c`, the input gate `σ z_{128+c}` and the output gate `σ z_{256+c}`, where
  `σ z = 1 / (1 + e^(-z))`. The new state is written in two ways:

    fused:  h_c + σ z_{128+c} · (tanh z_c − h_c)
    tied:   tanh z_c · σ z_{128+c} + h_c · (1 − σ z_{128+c})

  and the output is `tanh (new state) · σ z_{256+c}`. Over the reals the two forms of the state agree by
  distributivity. On the extended reals distributivity fails at infinities, so the law is proved where the three
  numbers involved are real: `tanh` and `σ` take real values at EVERY extended real (at `±∞` they are `±1`, `0`
  and `1`), so only `h_c` has to be assumed real.
-/
import Idealize.ShloMosaic.PureOps.Ideal
import Idealize.ShloMosaic.Lib.ValueIdx

noncomputable section

namespace Cert.GatedCell

open Idealize.ShloMosaic Idealize.ShloMosaic.ValueIdx

/-! ## The three column bands of the pre-activation -/

/-- Column `c` of the candidate band, columns `0 … 127`. -/
def candCol (c : Fin 128) : Fin 384 := ⟨c.val, by have := c.isLt; omega⟩
/-- Column `c` of the input-gate band, columns `128 … 255`. -/
def inCol (c : Fin 128) : Fin 384 := ⟨128 + c.val, by have := c.isLt; omega⟩
/-- Column `c` of the output-gate band, columns `256 … 383`. -/
def outCol (c : Fin 128) : Fin 384 := ⟨256 + c.val, by have := c.isLt; omega⟩

/-! ## One row -/

/-- The pre-activation of a row: `z_j = x_j + Σ_k h_k · W_{k j}`. -/
def preact (h : Fin 128 → EReal) (x : Fin 384 → EReal) (W : (⟨2, ![128, 384]⟩ : Shape).Idx → EReal) (j : Fin 384) : EReal :=
  x j + ∑ k : Fin 128, h k * W (ix2 k j)

/-- The new state of a row, fused form: `h_c + σ z_{128+c} · (tanh z_c − h_c)`. -/
def stateFused (h : Fin 128 → EReal) (x : Fin 384 → EReal) (W : (⟨2, ![128, 384]⟩ : Shape).Idx → EReal) (c : Fin 128) : EReal :=
  h c + Ideal.logistic (preact h x W (inCol c)) * (Ideal.tanh (preact h x W (candCol c)) - h c)

/-- The new state of a row, tied-gate form: `tanh z_c · σ z_{128+c} + h_c · (1 − σ z_{128+c})`. -/
def stateTied (h : Fin 128 → EReal) (x : Fin 384 → EReal) (W : (⟨2, ![128, 384]⟩ : Shape).Idx → EReal) (c : Fin 128) : EReal :=
  Ideal.tanh (preact h x W (candCol c)) * Ideal.logistic (preact h x W (inCol c))
    + h c * (1 - Ideal.logistic (preact h x W (inCol c)))

/-- The output of a row: `tanh (new state) · σ z_{256+c}`. -/
def outFused (h : Fin 128 → EReal) (x : Fin 384 → EReal) (W : (⟨2, ![128, 384]⟩ : Shape).Idx → EReal) (c : Fin 128) : EReal :=
  Ideal.tanh (stateFused h x W c) * Ideal.logistic (preact h x W (outCol c))

/-! ## Whole arrays: every row by itself -/

/-- Row `r` of a two-axis array. -/
abbrev rowOf {B n : Nat} (a : (⟨2, ![B, n]⟩ : Shape).Idx → EReal) (r : Fin B) : Fin n → EReal := fun k => a (ix2 r k)

/-- The new states of `B` rows: entry `(r, c)` is row `r`'s new state at `c`. -/
def stateArr {B : Nat} (h : (⟨2, ![B, 128]⟩ : Shape).Idx → EReal) (x : (⟨2, ![B, 384]⟩ : Shape).Idx → EReal)
    (W : (⟨2, ![128, 384]⟩ : Shape).Idx → EReal) : (⟨2, ![B, 128]⟩ : Shape).Idx → EReal :=
  fun i => stateFused (rowOf h (i 0)) (rowOf x (i 0)) W (i 1)

/-- The outputs of `B` rows. -/
def outArr {B : Nat} (h : (⟨2, ![B, 128]⟩ : Shape).Idx → EReal) (x : (⟨2, ![B, 384]⟩ : Shape).Idx → EReal)
    (W : (⟨2, ![128, 384]⟩ : Shape).Idx → EReal) : (⟨2, ![B, 128]⟩ : Shape).Idx → EReal :=
  fun i => outFused (rowOf h (i 0)) (rowOf x (i 0)) W (i 1)

/-! ## `tanh` and `σ` are real everywhere -/

/-- `tanh` of any extended real is a real number: `−1` at `−∞`, `1` at `+∞`. -/
theorem tanh_real (z : EReal) : ∃ t : ℝ, Ideal.tanh z = (t : EReal) := by
  induction z using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- `σ` of any extended real is a real number: `0` at `−∞`, `1` at `+∞`. -/
theorem logistic_real (z : EReal) : ∃ g : ℝ, Ideal.logistic z = (g : EReal) := by
  induction z using EReal.rec with
  | bot => exact ⟨0, by rw [Ideal.logistic_bot, EReal.coe_zero]⟩
  | coe r => exact ⟨(1 + Real.exp (-r))⁻¹, Ideal.logistic_coe r⟩
  | top => exact ⟨1, by rw [Ideal.logistic_top, EReal.coe_one]⟩

/-! ## The law -/

/-- For a REAL `h` and any extended reals `a`, `b`: `h + σ b · (tanh a − h) = tanh a · σ b + h · (1 − σ b)`.
    All three numbers are real, and over the reals this is distributivity. -/
theorem fused_eq_tied_scalar {h : EReal} (hh : ∃ r : ℝ, h = (r : EReal)) (a b : EReal) :
    h + Ideal.logistic b * (Ideal.tanh a - h) = Ideal.tanh a * Ideal.logistic b + h * (1 - Ideal.logistic b) := by
  obtain ⟨r, rfl⟩ := hh
  obtain ⟨t, ht⟩ := tanh_real a
  obtain ⟨g, hg⟩ := logistic_real b
  rw [ht, hg]
  have e : r + g * (t - r) = t * g + r * (1 - g) := by ring
  exact_mod_cast congrArg (fun z : ℝ => (z : EReal)) e

/-- The two forms of a row's new state agree wherever the old state is real. -/
theorem stateFused_eq_stateTied (h : Fin 128 → EReal) (x : Fin 384 → EReal) (W : (⟨2, ![128, 384]⟩ : Shape).Idx → EReal)
    (c : Fin 128) (hh : ∃ r : ℝ, h c = (r : EReal)) : stateFused h x W c = stateTied h x W c :=
  fused_eq_tied_scalar hh _ _

/-! ## The float literal `1.0` -/

/-- The single-precision pattern `0x3F800000` (sign 0, exponent 127, significand 0) denotes `1`. -/
theorem one_f32 : Ideal.ofBits .f32 0x3F800000#32 = 1 := by
  simp [Ideal.ofBits, Ideal.ieee, -EReal.coe_mul]
  norm_num

/-- The expansion `1 / (1 + e^(−z))` with the literal `1.0` in both places is `σ z`. -/
theorem div_one_add_exp_neg (z : EReal) :
    Ideal.div (Ideal.ofBits .f32 0x3F800000#32) (Ideal.ofBits .f32 0x3F800000#32 + Ideal.exp (-z)) = Ideal.logistic z := by
  rw [one_f32]; rfl

end Cert.GatedCell

end
-- ==== Proof.KernelPayload.lean ====
/-
  What the kernel's loop body computes on one chunk of 1024 rows, element by element, at the exact instance.

  The body loads a chunk `hc` (1024×128) of the state block, the matching chunk `xc` (1024×384) of the input block
  and the whole weight block `w` (128×384), and stores two 1024×128 values. At the exact instance the rounding of
  `hc` before the matrix product is the identity and the product into a zero accumulator is the plain sum
  `Σ_k hc[p,k] · w[k,j]`; so `xc + hc·w` at `(p, j)` is the pre-activation of row `p`, its three column bands are cut
  out by the three slices, and the two stored values at `(p, q)` are row `p`'s new state and output at `q`.
-/
import proofs.«402689_j68272800137228_3_alg».proof.Proof.Gen.KernelIdeal.Skeleton
import proofs.«402689_j68272800137228_3_alg».proof.Proof.CellSpec
import Idealize.ShloMosaic.Lib.Pipeline.Value
import Idealize.ShloMosaic.Lib.ValueIdx
import Idealize.ShloMosaic.PureOps.Ideal.Laws

noncomputable section

namespace Cert.GatedCell.Chunk

open Cert.KernelIdeal Cert.KernelIdeal.Gen Idealize.ShloMosaic Idealize.ShloMosaic.ValueIdx Cert.GatedCell

/-! ## The chunk's matrix product as a row-by-column sum -/

/-- The left operand's row coordinate is the result's row. -/
theorem lhs_axis0 (i : S1024x384.Idx) (q : dot_S1024x128_S128x384_S1024x384_1_0_0_1_n_n.contr.Idx) :
    (dot_S1024x128_S128x384_S1024x384_1_0_0_1_n_n.lhsIdx i q 0).val = (i 0).val := by
  unfold DotDims.lhsIdx
  rw [dif_neg (show ¬(0 : Fin S1024x128.rank) ∈ dot_S1024x128_S128x384_S1024x384_1_0_0_1_n_n.lhsBatch by decide),
    dif_pos (show (0 : Fin S1024x128.rank) ∈ dot_S1024x128_S128x384_S1024x384_1_0_0_1_n_n.lhsNonContracting by decide)]
  rfl
/-- The left operand's column coordinate is the contraction index. -/
theorem lhs_axis1 (i : S1024x384.Idx) (q : dot_S1024x128_S128x384_S1024x384_1_0_0_1_n_n.contr.Idx) :
    (dot_S1024x128_S128x384_S1024x384_1_0_0_1_n_n.lhsIdx i q 1).val = (q ⟨0, by decide⟩).val :=
  dot_S1024x128_S128x384_S1024x384_1_0_0_1_n_n.lhsIdx_val_of_single rfl i q
/-- The right operand's row coordinate is the contraction index. -/
theorem rhs_axis0 (i : S1024x384.Idx) (q : dot_S1024x128_S128x384_S1024x384_1_0_0_1_n_n.contr.Idx) :
    (dot_S1024x128_S128x384_S1024x384_1_0_0_1_n_n.rhsIdx i q 0).val = (q ⟨0, by decide⟩).val :=
  dot_S1024x128_S128x384_S1024x384_1_0_0_1_n_n.rhsIdx_val_of_single rfl i q
/-- The right operand's column coordinate is the result's column. -/
theorem rhs_axis1 (i : S1024x384.Idx) (q : dot_S1024x128_S128x384_S1024x384_1_0_0_1_n_n.contr.Idx) :
    (dot_S1024x128_S128x384_S1024x384_1_0_0_1_n_n.rhsIdx i q 1).val = (i 1).val := by
  unfold DotDims.rhsIdx
  rw [dif_neg (show ¬(1 : Fin S128x384.rank) ∈ dot_S1024x128_S128x384_S1024x384_1_0_0_1_n_n.rhsBatch by decide),
    dif_pos (show (1 : Fin S128x384.rank) ∈ dot_S1024x128_S128x384_S1024x384_1_0_0_1_n_n.rhsNonContracting by decide)]
  rfl

/-- The product of a 1024×128 chunk with the 128×384 weights into a zero accumulator, at `(p, j)`:
    `Σ_k a[p,k] · b[k,j]`. -/
theorem matmul_at (a : FVec Ideal S1024x128 .bf16) (b : FVec Ideal S128x384 .bf16) (p : Fin 1024) (j : Fin 384) :
    matmul dot_S1024x128_S128x384_S1024x384_1_0_0_1_n_n none a b (constant S1024x384 .f32 0x00000000#32) (ix2 p j)
      = ∑ k : Fin 128, a (ix2 p k) * b (ix2 k j) := by
  simp only [matmul]
  rw [Ideal.matmul_constant_zero_apply, ← Equiv.sum_comp (contrEquiv1 dot_S1024x128_S128x384_S1024x384_1_0_0_1_n_n 128 rfl rfl).symm]
  refine Finset.sum_congr rfl fun k _ => ?_
  have hk := contrEquiv1_symm_val dot_S1024x128_S128x384_S1024x384_1_0_0_1_n_n 128 rfl rfl k
  have el : dot_S1024x128_S128x384_S1024x384_1_0_0_1_n_n.lhsIdx (ix2 p j) ((contrEquiv1 dot_S1024x128_S128x384_S1024x384_1_0_0_1_n_n 128 rfl rfl).symm k) = ix2 p k :=
    funext fun a => Fin.ext (by
      match a with
      | ⟨0, _⟩ => exact lhs_axis0 _ _
      | ⟨1, _⟩ => exact (lhs_axis1 _ _).trans hk)
  have er : dot_S1024x128_S128x384_S1024x384_1_0_0_1_n_n.rhsIdx (ix2 p j) ((contrEquiv1 dot_S1024x128_S128x384_S1024x384_1_0_0_1_n_n 128 rfl rfl).symm k) = ix2 k j :=
    funext fun a => Fin.ext (by
      match a with
      | ⟨0, _⟩ => exact (rhs_axis0 _ _).trans hk
      | ⟨1, _⟩ => exact rhs_axis1 _ _)
  rw [el, er]

/-! ## The body's values at an element -/

/-- `xc + hc·w` at `(p, j)` is the pre-activation of row `p` at column `j`. -/
theorem preact_at (w : Vec Ideal S128x384 .bf16) (hc : Vec Ideal S1024x128 .f32) (xc : Vec Ideal S1024x384 .f32)
    (p : Fin 1024) (j : Fin 384) :
    k0_pay1 (F := Ideal) w hc xc (ix2 p j) = preact (rowOf hc p) (rowOf xc p) w j := by
  unfold k0_pay1
  rw [addf_apply, shapeCast_self, matmul_at]
  rfl

/-- The gates `σ (xc + hc·w)` on the last 256 columns, at `(p, j)`: `σ` of the pre-activation at column `j' = 128 + j`. -/
theorem gates_at (w : Vec Ideal S128x384 .bf16) (hc : Vec Ideal S1024x128 .f32) (xc : Vec Ideal S1024x384 .f32)
    (p : Fin 1024) (j : Fin 256) (j' : Fin 384) (hj : j'.val = 128 + j.val) :
    k0_pay2 (F := Ideal) w hc xc (ix2 p j) = Ideal.logistic (preact (rowOf hc p) (rowOf xc p) w j') := by
  unfold k0_pay2
  show Ideal.logistic (extractStridedSlice S1024x256 ![0, 128] (k0_pay1 (F := Ideal) w hc xc) slices_S1024x384_o0_128_S1024x256 (ix2 p j)) = _
  rw [extractStridedSlice_apply ![0, 128] (k0_pay1 (F := Ideal) w hc xc) slices_S1024x384_o0_128_S1024x256 (ix2 p j)
    (ix2 p j') (fun a => match a with
      | ⟨0, _⟩ => by show p.val = 0 + p.val; omega
      | ⟨1, _⟩ => hj), preact_at]

/-- The first stored value at `(p, q)`: row `p`'s new state at `q`, in the fused form. -/
theorem state_at (w : Vec Ideal S128x384 .bf16) (hc : Vec Ideal S1024x128 .f32) (xc : Vec Ideal S1024x384 .f32)
    (p : Fin 1024) (q : Fin 128) :
    k0_pay3 (F := Ideal) w hc xc (ix2 p q) = stateFused (rowOf hc p) (rowOf xc p) w q := by
  unfold k0_pay3
  show hc (ix2 p q)
      + extractStridedSlice S1024x128 ![0, 0] (k0_pay2 (F := Ideal) w hc xc) slices_S1024x256_o0_0_S1024x128 (ix2 p q)
        * (Ideal.tanh (extractStridedSlice S1024x128 ![0, 0] (k0_pay1 (F := Ideal) w hc xc) slices_S1024x384_o0_0_S1024x128 (ix2 p q))
            - hc (ix2 p q)) = _
  rw [extractStridedSlice_apply ![0, 0] (k0_pay2 (F := Ideal) w hc xc) slices_S1024x256_o0_0_S1024x128 (ix2 p q)
      (ix2 p ⟨q.val, by have := q.isLt; omega⟩) (fun a => match a with
        | ⟨0, _⟩ => by show p.val = 0 + p.val; omega
        | ⟨1, _⟩ => by show q.val = 0 + q.val; omega),
    extractStridedSlice_apply ![0, 0] (k0_pay1 (F := Ideal) w hc xc) slices_S1024x384_o0_0_S1024x128 (ix2 p q)
      (ix2 p (candCol q)) (fun a => match a with
        | ⟨0, _⟩ => by show p.val = 0 + p.val; omega
        | ⟨1, _⟩ => by show q.val = 0 + q.val; omega),
    gates_at w hc xc p ⟨q.val, by have := q.isLt; omega⟩ (inCol q) rfl, preact_at]
  rfl

/-- The second stored value at `(p, q)`: row `p`'s output at `q`. -/
theorem out_at (w : Vec Ideal S128x384 .bf16) (hc : Vec Ideal S1024x128 .f32) (xc : Vec Ideal S1024x384 .f32)
    (p : Fin 1024) (q : Fin 128) :
    k0_pay4 (F := Ideal) w hc xc (ix2 p q) = outFused (rowOf hc p) (rowOf xc p) w q := by
  unfold k0_pay4
  show Ideal.tanh (k0_pay3 (F := Ideal) w hc xc (ix2 p q))
      * extractStridedSlice S1024x128 ![0, 128] (k0_pay2 (F := Ideal) w hc xc) slices_S1024x256_o0_128_S1024x128 (ix2 p q) = _
  rw [extractStridedSlice_apply ![0, 128] (k0_pay2 (F := Ideal) w hc xc) slices_S1024x256_o0_128_S1024x128 (ix2 p q)
      (ix2 p ⟨128 + q.val, by have := q.isLt; omega⟩) (fun a => match a with
        | ⟨0, _⟩ => by show p.val = 0 + p.val; omega
        | ⟨1, _⟩ => by show 128 + q.val = 128 + q.val; rfl),
    gates_at w hc xc p ⟨128 + q.val, by have := q.isLt; omega⟩ (outCol q)
      (by show 256 + q.val = 128 + (128 + q.val); omega), state_at]
  rfl

end Cert.GatedCell.Chunk

end
-- ==== Proof.KernelBlock.lean ====
/-
  What one grid point's body leaves in its two output blocks (4096×128 each), at the exact instance.

  The body's loop makes four trips; trip `κ` loads rows `1024κ … 1024κ+1023` of the state block `hb` and of the
  input block `xb`, and stores the chunk's new states and outputs into the same rows of the two output blocks. Row
  `p` of the chunk is row `1024κ + p` of the block, and a row's result depends on that row alone (and on the
  weights), so every store is the restriction to its rows of ONE function of the block index: the row-wise new state,
  respectively output, of `(hb, xb, w)`. The four stores tile the block, hence each block ends holding that function.
-/
import proofs.«402689_j68272800137228_3_alg».proof.Proof.Gen.KernelIdeal.Frame
import proofs.«402689_j68272800137228_3_alg».proof.Proof.KernelPayload

set_option maxRecDepth 16384

noncomputable section

namespace Cert.GatedCell.Block

open Cert.KernelIdeal Cert.KernelIdeal.Gen Idealize.ShloMosaic Idealize.ShloMosaic.TcCoe Idealize.ShloMosaic.ValueIdx Cert.GatedCell
open Idealize.SL.Sem

/-! ## A chunk's rows inside the block -/

/-- Row `p` of the 1024-row chunk read at row offset `1024κ` of a 4096-row block is the block's row `1024κ + p`. -/
theorem row_of_chunk {n : Nat} (X : (⟨2, ![4096, n]⟩ : Shape).Idx → EReal) (off : Fin 2 → Nat) (κ : Nat)
    (hoff : off = ![1024 * κ, 0])
    (inb : ∀ a, off a + (⟨2, ![1024, n]⟩ : Shape).size a ≤ (⟨2, ![4096, n]⟩ : Shape).size a)
    (p : Fin 1024) (r : Fin 4096) (hr : r.val = 1024 * κ + p.val) :
    rowOf (View.ld (Val := Elt Ideal) (e' := .f32) X (Rect.unit (s := ⟨2, ![4096, n]⟩) off (⟨2, ![1024, n]⟩ : Shape).size inb)) p
      = rowOf X r := by
  subst hoff
  funext k
  show X ((Rect.unit _ _ inb).idx (ix2 p k)) = X (ix2 r k)
  congr 1
  funext a; apply Fin.ext
  match a with
  | ⟨0, _⟩ => show 1024 * κ + 1 * p.val = r.val; omega
  | ⟨1, _⟩ => show 0 + 1 * k.val = k.val; omega

/-- A chunk's new states are the block's new states on the chunk's rows. -/
theorem chunk_state (hb : Vec Ideal S4096x128 .f32) (xb : Vec Ideal S4096x384 .f32) (w : Vec Ideal S128x384 .bf16)
    (off1 off2 : Fin 2 → Nat) (κ : Nat) (h1 : off1 = ![1024 * κ, 0]) (h2 : off2 = ![1024 * κ, 0])
    (inb1 : ∀ a, off1 a + S1024x128.size a ≤ S4096x128.size a) (inb2 : ∀ a, off2 a + S1024x384.size a ≤ S4096x384.size a)
    (y : S1024x128.Idx) :
    k0_pay3 (F := Ideal) w (View.ld hb (Rect.unit off1 S1024x128.size inb1)) (View.ld xb (Rect.unit off2 S1024x384.size inb2)) y
      = stateArr hb xb w ((Rect.unit (s := S4096x128) off1 S1024x128.size inb1).emb y) := by
  obtain ⟨p, q, rfl⟩ : ∃ (p : Fin 1024) (q : Fin 128), y = ix2 p q := ⟨y 0, y 1, eq_ix2 y⟩
  have hr : ((Rect.unit (s := S4096x128) off1 S1024x128.size inb1).emb (ix2 p q) 0).val = 1024 * κ + p.val := by
    subst h1; show 1024 * κ + 1 * p.val = _; omega
  have hc : (Rect.unit (s := S4096x128) off1 S1024x128.size inb1).emb (ix2 p q) 1 = q :=
    Fin.ext (by subst h1; show 0 + 1 * q.val = q.val; omega)
  rw [Chunk.state_at]
  show _ = stateFused (rowOf hb _) (rowOf xb _) w _
  rw [hc, row_of_chunk hb off1 κ h1 inb1 p _ hr, row_of_chunk xb off2 κ h2 inb2 p _ hr]

/-- A chunk's outputs are the block's outputs on the chunk's rows. -/
theorem chunk_out (hb : Vec Ideal S4096x128 .f32) (xb : Vec Ideal S4096x384 .f32) (w : Vec Ideal S128x384 .bf16)
    (off1 off2 : Fin 2 → Nat) (κ : Nat) (h1 : off1 = ![1024 * κ, 0]) (h2 : off2 = ![1024 * κ, 0])
    (inb1 : ∀ a, off1 a + S1024x128.size a ≤ S4096x128.size a) (inb2 : ∀ a, off2 a + S1024x384.size a ≤ S4096x384.size a)
    (y : S1024x128.Idx) :
    k0_pay4 (F := Ideal) w (View.ld hb (Rect.unit off1 S1024x128.size inb1)) (View.ld xb (Rect.unit off2 S1024x384.size inb2)) y
      = outArr hb xb w ((Rect.unit (s := S4096x128) off1 S1024x128.size inb1).emb y) := by
  obtain ⟨p, q, rfl⟩ : ∃ (p : Fin 1024) (q : Fin 128), y = ix2 p q := ⟨y 0, y 1, eq_ix2 y⟩
  have hr : ((Rect.unit (s := S4096x128) off1 S1024x128.size inb1).emb (ix2 p q) 0).val = 1024 * κ + p.val := by
    subst h1; show 1024 * κ + 1 * p.val = _; omega
  have hc : (Rect.unit (s := S4096x128) off1 S1024x128.size inb1).emb (ix2 p q) 1 = q :=
    Fin.ext (by subst h1; show 0 + 1 * q.val = q.val; omega)
  rw [Chunk.out_at]
  show _ = outFused (rowOf hb _) (rowOf xb _) w _
  rw [hc, row_of_chunk hb off1 κ h1 inb1 p _ hr, row_of_chunk xb off2 κ h2 inb2 p _ hr]

/-! ## One trip's stores -/

/-- Every store of a list is the restriction of `G` to the store's rectangle. -/
def Restricts {S : Shape} (G : S.Idx → Elt Ideal .f32) (L : List (View.Piece (Elt Ideal) S .f32)) : Prop :=
  ∀ pc ∈ L, ∀ y : pc.1.shape.Idx, pc.2 y = G (pc.1.emb y)

theorem Restricts.nil {S : Shape} (G : S.Idx → Elt Ideal .f32) : Restricts G [] :=
  fun _ h => absurd h List.not_mem_nil

theorem Restricts.append {S : Shape} {G : S.Idx → Elt Ideal .f32} {L L' : List (View.Piece (Elt Ideal) S .f32)}
    (h : Restricts G L) (h' : Restricts G L') : Restricts G (L ++ L') := fun pc hm =>
  (List.mem_append.mp hm).elim (h pc) (h' pc)

/-- Trip `k` stores, into the first output, ONE value: the chunk's new states at rows `1024k …`; into the second, the
    chunk's outputs at the same rows — each of the chunks read at the trip's offsets. -/
theorem trip_stores (𝒱 : Variants) (c : Dev nD) (bd : Option 𝒱.V) (i : grid0.Coords) (arg1 : Memref sig .tc .vmem S4096x128 .f32) (harg1 : arg1.IsWhole) (arg2 : Memref sig .tc .vmem S4096x384 .f32) (harg2 : arg2.IsWhole) (arg3 : Memref sig .tc .vmem S128x384 .bf16) (harg3 : arg3.IsWhole) (arg4 : Memref sig .tc .vmem S4096x128 .f32) (harg4 : arg4.IsWhole) (arg5 : Memref sig .tc .vmem S4096x128 .f32) (harg5 : arg5.IsWhole) (w : Vec Ideal S128x384 .bf16)
    (X1 : BufTy.Contents (Elt Ideal) arg1.view.ty) (X2 : BufTy.Contents (Elt Ideal) arg2.view.ty) (k : Fin k0_t1_loop.trips) :
    tripL_k0_t1 (F := Ideal) 𝒱 c bd i arg1 harg1 arg2 harg2 arg3 harg3 arg4 harg4 arg5 harg5 w X1 X2 k
      = ([(⟨Rect.unit (k0_off1 k) S1024x128.size (k0_off1_inb k),
            k0_pay3 w (View.ld (arg1.view.read (Elt Ideal) X1) (Rect.unit (k0_off1 k) S1024x128.size (k0_off1_inb k)))
              (View.ld (arg2.view.read (Elt Ideal) X2) (Rect.unit (k0_off2 k) S1024x384.size (k0_off2_inb k)))⟩ : View.Piece (Elt Ideal) S4096x128 .f32)],
         [(⟨Rect.unit (k0_off1 k) S1024x128.size (k0_off1_inb k),
            k0_pay4 w (View.ld (arg1.view.read (Elt Ideal) X1) (Rect.unit (k0_off1 k) S1024x128.size (k0_off1_inb k)))
              (View.ld (arg2.view.read (Elt Ideal) X2) (Rect.unit (k0_off2 k) S1024x384.size (k0_off2_inb k)))⟩ : View.Piece (Elt Ideal) S4096x128 .f32)]) := by
  unfold tripL_k0_t1 trip_k0_t1
  rfl

/-- So both of a trip's stores restrict the block's row-wise functions. -/
theorem trip_restricts (𝒱 : Variants) (c : Dev nD) (bd : Option 𝒱.V) (i : grid0.Coords) (arg1 : Memref sig .tc .vmem S4096x128 .f32) (harg1 : arg1.IsWhole) (arg2 : Memref sig .tc .vmem S4096x384 .f32) (harg2 : arg2.IsWhole) (arg3 : Memref sig .tc .vmem S128x384 .bf16) (harg3 : arg3.IsWhole) (arg4 : Memref sig .tc .vmem S4096x128 .f32) (harg4 : arg4.IsWhole) (arg5 : Memref sig .tc .vmem S4096x128 .f32) (harg5 : arg5.IsWhole) (hb : Vec Ideal S4096x128 .f32) (xb : Vec Ideal S4096x384 .f32) (w : Vec Ideal S128x384 .bf16)
    (X1 : BufTy.Contents (Elt Ideal) arg1.view.ty) (X2 : BufTy.Contents (Elt Ideal) arg2.view.ty)
    (e1 : arg1.view.read (Elt Ideal) X1 = hb) (e2 : arg2.view.read (Elt Ideal) X2 = xb) (k : Fin k0_t1_loop.trips) :
    Restricts (stateArr hb xb w) (tripL_k0_t1 (F := Ideal) 𝒱 c bd i arg1 harg1 arg2 harg2 arg3 harg3 arg4 harg4 arg5 harg5 w X1 X2 k).1
      ∧ Restricts (outArr hb xb w) (tripL_k0_t1 (F := Ideal) 𝒱 c bd i arg1 harg1 arg2 harg2 arg3 harg3 arg4 harg4 arg5 harg5 w X1 X2 k).2 := by
  rw [trip_stores, e1, e2]
  constructor
  · intro pc hm y
    obtain rfl := List.mem_singleton.mp hm
    exact chunk_state hb xb w (k0_off1 k) (k0_off2 k) k.val (k0_off1_eq k) (k0_off2_eq k) (k0_off1_inb k) (k0_off2_inb k) y
  · intro pc hm y
    obtain rfl := List.mem_singleton.mp hm
    exact chunk_out hb xb w (k0_off1 k) (k0_off2 k) k.val (k0_off1_eq k) (k0_off2_eq k) (k0_off1_inb k) (k0_off2_inb k) y

/-! ## All the trips -/

/-- The stores of the trips before `n`, for every `n`: each restricts the block's row-wise function. -/
theorem trips_restrict (𝒱 : Variants) (c : Dev nD) (bd : Option 𝒱.V) (i : grid0.Coords) (arg1 : Memref sig .tc .vmem S4096x128 .f32) (harg1 : arg1.IsWhole) (arg2 : Memref sig .tc .vmem S4096x384 .f32) (harg2 : arg2.IsWhole) (arg3 : Memref sig .tc .vmem S128x384 .bf16) (harg3 : arg3.IsWhole) (arg4 : Memref sig .tc .vmem S4096x128 .f32) (harg4 : arg4.IsWhole) (arg5 : Memref sig .tc .vmem S4096x128 .f32) (harg5 : arg5.IsWhole) (hb : Vec Ideal S4096x128 .f32) (xb : Vec Ideal S4096x384 .f32) (w : Vec Ideal S128x384 .bf16)
    (X1 : BufTy.Contents (Elt Ideal) arg1.view.ty) (X2 : BufTy.Contents (Elt Ideal) arg2.view.ty)
    (e1 : arg1.view.read (Elt Ideal) X1 = hb) (e2 : arg2.view.read (Elt Ideal) X2 = xb) :
    ∀ n : ℕ, Restricts (stateArr hb xb w) (pb_k0_t1 (F := Ideal) 𝒱 c bd i arg1 harg1 arg2 harg2 arg3 harg3 arg4 harg4 arg5 harg5 w X1 X2 n).1
      ∧ Restricts (outArr hb xb w) (pb_k0_t1 (F := Ideal) 𝒱 c bd i arg1 harg1 arg2 harg2 arg3 harg3 arg4 harg4 arg5 harg5 w X1 X2 n).2
  | 0 => ⟨Restricts.nil _, Restricts.nil _⟩
  | n + 1 => by
    have ih := trips_restrict 𝒱 c bd i arg1 harg1 arg2 harg2 arg3 harg3 arg4 harg4 arg5 harg5 hb xb w X1 X2 e1 e2 n
    by_cases h : n < k0_t1_loop.trips
    · have e : pb_k0_t1 (F := Ideal) 𝒱 c bd i arg1 harg1 arg2 harg2 arg3 harg3 arg4 harg4 arg5 harg5 w X1 X2 (n + 1) = _ := pb_k0_t1_succ 𝒱 c bd i arg1 harg1 arg2 harg2 arg3 harg3 arg4 harg4 arg5 harg5 w X1 X2 ⟨n, h⟩
      rw [e]
      have ht := trip_restricts 𝒱 c bd i arg1 harg1 arg2 harg2 arg3 harg3 arg4 harg4 arg5 harg5 hb xb w X1 X2 e1 e2 ⟨n, h⟩
      exact ⟨ht.1.append ih.1, ht.2.append ih.2⟩
    · rw [pb_k0_t1.eq_2]; unfold pb_k0_t1Step; rw [dif_neg h]
      exact ih

/-! ## The two blocks after the body -/

theorem zero_off : (![0, 0] : Fin 2 → Nat) = fun _ => 0 := funext fun a => by fin_cases a <;> rfl

/-- After the body the first output block holds the row-wise new states of `(hb, xb, w)`. -/
theorem block_state (c : Dev nD) (i : grid0.Coords) (arg1 : Memref sig .tc .vmem S4096x128 .f32) (harg1 : arg1.IsWhole) (arg2 : Memref sig .tc .vmem S4096x384 .f32) (harg2 : arg2.IsWhole) (arg3 : Memref sig .tc .vmem S128x384 .bf16) (harg3 : arg3.IsWhole) (arg4 : Memref sig .tc .vmem S4096x128 .f32) (harg4 : arg4.IsWhole) (arg5 : Memref sig .tc .vmem S4096x128 .f32) (harg5 : arg5.IsWhole)
    (hb : Vec Ideal S4096x128 .f32) (xb : Vec Ideal S4096x384 .f32) (w : Vec Ideal S128x384 .bf16) :
    out0_A_3 (F := Ideal) c i arg1 harg1 arg2 harg2 arg3 harg3 arg4 harg4 arg5 harg5 hb xb w = stateArr hb xb w := by
  unfold out0_A_3
  rw [View.read_writes_eq_canon _ _ _ (cover0_A_3 c i arg1 harg1 arg2 harg2 arg3 harg3 arg4 harg4 arg5 harg5 hb xb w)]
  funext y
  refine View.canon_apply_of_pieces (stateArr hb xb w) _ ?_ y (cover0_A_3 c i arg1 harg1 arg2 harg2 arg3 harg3 arg4 harg4 arg5 harg5 hb xb w y)
  unfold kernelRun0_A
  dsimp only
  have hw : View.readAt (Elt Ideal) arg3.view (Rect.unit ![0, 0] ![128, 384] inb_S128x384_S128x384_0_0).toLoadRect (harg3.unread w) = w := by
    rw [View.readAt_eq_ld, harg3.read_unread]
    exact View.ld_unit_zero (S := S128x384) zero_off _ w
  rw [hw]
  exact (trips_restrict Variants.none c none i arg1 harg1 arg2 harg2 arg3 harg3 arg4 harg4 arg5 harg5 hb xb w _ _
    (harg1.read_unread hb) (harg2.read_unread xb) _).1

/-- After the body the second output block holds the row-wise outputs of `(hb, xb, w)`. -/
theorem block_out (c : Dev nD) (i : grid0.Coords) (arg1 : Memref sig .tc .vmem S4096x128 .f32) (harg1 : arg1.IsWhole) (arg2 : Memref sig .tc .vmem S4096x384 .f32) (harg2 : arg2.IsWhole) (arg3 : Memref sig .tc .vmem S128x384 .bf16) (harg3 : arg3.IsWhole) (arg4 : Memref sig .tc .vmem S4096x128 .f32) (harg4 : arg4.IsWhole) (arg5 : Memref sig .tc .vmem S4096x128 .f32) (harg5 : arg5.IsWhole)
    (hb : Vec Ideal S4096x128 .f32) (xb : Vec Ideal S4096x384 .f32) (w : Vec Ideal S128x384 .bf16) :
    out0_A_4 (F := Ideal) c i arg1 harg1 arg2 harg2 arg3 harg3 arg4 harg4 arg5 harg5 hb xb w = outArr hb xb w := by
  unfold out0_A_4
  rw [View.read_writes_eq_canon _ _ _ (cover0_A_4 c i arg1 harg1 arg2 harg2 arg3 harg3 arg4 harg4 arg5 harg5 hb xb w)]
  funext y
  refine View.canon_apply_of_pieces (outArr hb xb w) _ ?_ y (cover0_A_4 c i arg1 harg1 arg2 harg2 arg3 harg3 arg4 harg4 arg5 harg5 hb xb w y)
  unfold kernelRun0_A
  dsimp only
  have hw : View.readAt (Elt Ideal) arg3.view (Rect.unit ![0, 0] ![128, 384] inb_S128x384_S128x384_0_0).toLoadRect (harg3.unread w) = w := by
    rw [View.readAt_eq_ld, harg3.read_unread]
    exact View.ld_unit_zero (S := S128x384) zero_off _ w
  rw [hw]
  exact (trips_restrict Variants.none c none i arg1 harg1 arg2 harg2 arg3 harg3 arg4 harg4 arg5 harg5 hb xb w _ _
    (harg1.read_unread hb) (harg2.read_unread xb) _).2

end Cert.GatedCell.Block

end
-- ==== Proof.KernelArray.lean ====
/-
  The kernel's two result arrays (131072×128 each), at the exact instance, as functions of its three arguments.

  Grid point `t` (of 32) stages rows `4096t … 4096t+4095` of the state array `h` and of the input array `x`, and the
  whole rounded weight array; its body leaves in the two output blocks the row-wise new states and outputs of those
  staged blocks; and the blocks are written back to the same rows of the two results. Row `ρ` of a staged block is
  row `4096t + ρ` of its array and a row's result depends on that row alone, so what point `t` writes back is block
  `t` of ONE function of the arrays: their row-wise new states, respectively outputs. The 32 blocks tile the rows, so
  the two results end holding those functions. Rounding the weights to bf16 before the call is the identity here.
-/
import proofs.«402689_j68272800137228_3_alg».proof.Proof.Gen.KernelIdeal.Value
import proofs.«402689_j68272800137228_3_alg».proof.Proof.KernelBlock
import Idealize.ShloMosaic.Lib.StableHlo.Run

set_option maxRecDepth 16384

noncomputable section

namespace Cert.GatedCell.Arrays

open Cert.KernelIdeal Cert.KernelIdeal.Gen Idealize.ShloMosaic Idealize.ShloMosaic.TcCoe Idealize.ShloMosaic.ValueIdx Cert.GatedCell
open Idealize.SL.Sem Idealize.ShloMosaic.StableHlo
open Idealize.ShloMosaic.Pipeline (Dat)

variable (m : (ℓ : Loc nD τ sig) → Buf (Elt Ideal) ℓ) (ρ : Dev nD → PrngReg)

/-! ## The arrays the call finds -/

/-- The state array as the call finds it. -/
abbrev hArr (c : Dev nD) : Vec Ideal S131072x128 .f32 := V m c main_arg0
/-- The input array as the call finds it. -/
abbrev xArr (c : Dev nD) : Vec Ideal S131072x384 .f32 := V m c main_arg1
/-- The rounded weight array as the call finds it. -/
abbrev wArr (c : Dev nD) : Vec Ideal S128x384 .bf16 := V m c main_v0

/-- The weights the call finds are the launched weights: the rounding to bf16 before the call changes no value. -/
theorem wArr_eq (c : Dev nD) : wArr m c = fun i => m ((c : Thread nD τ).loc main_arg2) i := by
  have e : (V m c main_v0 : S128x384.Idx → Elt Ideal .bf16)
      = truncf (F := Ideal) .bf16 (m ((c : Thread nD τ).loc main_arg2)) bitsLt_bf16_f32 := by
    dsimp only [Gen.V, Gen.hostOps0]; after_results
  show (V m c main_v0 : S128x384.Idx → Elt Ideal .bf16) = _
  rw [e]
  rfl

/-! ## Where each grid point's blocks sit -/

/-- The index maps over the 32 points: point `t` stages block row `t` of the state, of the input and of both results,
    at block column 0, and block `(0, 0)` of the weights. -/
theorem block_indices : ∀ t : Fin cfg0.N,
    win0_3.index t (0 : Fin 2) = t.val ∧ win0_3.index t (1 : Fin 2) = 0
    ∧ win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ t.val < 32 :=
  (by decide +kernel : ∀ t : Fin grid0.N, _)

/-- The staged weight block is the whole weight array. -/
theorem wblk_eq (c : Dev nD) (t : Fin cfg0.N) : (iblk m c 2 t : S128x384.Idx → Elt Ideal .bf16) = wArr m c := by
  obtain ⟨-, -, -, -, -, -, -, -, e0, e1, -⟩ := block_indices t
  funext y
  show V m c main_v0 (((cfg0.win 2).blk t).view.emb y) = V m c main_v0 y
  congr 1
  funext a; apply Fin.ext
  match a with
  | ⟨0, _⟩ => show win0_2.index t (0 : Fin 2) * 128 + 1 * (y 0).val = (y 0).val; omega
  | ⟨1, _⟩ => show win0_2.index t (1 : Fin 2) * 384 + 1 * (y 1).val = (y 1).val; omega

/-- Row `r` of the staged state block at point `t` is row `4096t + r` of the state array. -/
theorem hblk_row (c : Dev nD) (t : Fin cfg0.N) (r : Fin 4096) (R : Fin 131072) (hR : R.val = 4096 * t.val + r.val) :
    rowOf (iblk m c 0 t : S4096x128.Idx → Elt Ideal .f32) r = rowOf (hArr m c) R := by
  obtain ⟨-, -, -, -, e0, e1, -, -, -, -, -⟩ := block_indices t
  funext k
  show V m c main_arg0 (((cfg0.win 0).blk t).view.emb (ix2 r k)) = V m c main_arg0 (ix2 R k)
  congr 1
  funext a; apply Fin.ext
  match a with
  | ⟨0, _⟩ => show win0_0.index t (0 : Fin 2) * 4096 + 1 * r.val = R.val; omega
  | ⟨1, _⟩ => show win0_0.index t (1 : Fin 2) * 128 + 1 * k.val = k.val; omega

/-- Row `r` of the staged input block at point `t` is row `4096t + r` of the input array. -/
theorem xblk_row (c : Dev nD) (t : Fin cfg0.N) (r : Fin 4096) (R : Fin 131072) (hR : R.val = 4096 * t.val + r.val) :
    rowOf (iblk m c 1 t : S4096x384.Idx → Elt Ideal .f32) r = rowOf (xArr m c) R := by
  obtain ⟨-, -, -, -, -, -, e0, e1, -, -, -⟩ := block_indices t
  funext k
  show V m c main_arg1 (((cfg0.win 1).blk t).view.emb (ix2 r k)) = V m c main_arg1 (ix2 R k)
  congr 1
  funext a; apply Fin.ext
  match a with
  | ⟨0, _⟩ => show win0_1.index t (0 : Fin 2) * 4096 + 1 * r.val = R.val; omega
  | ⟨1, _⟩ => show win0_1.index t (1 : Fin 2) * 384 + 1 * k.val = k.val; omega

/-! ## What each point writes back -/

/-- Point `t` writes back, to the first result, block `t` of the arrays' row-wise new states. -/
theorem flushed_state (c : Dev nD) (t : Fin cfg0.N) :
    (dats m 0 c).flushed 3 t
      = ((cfg0.win 3).blk t).view.read (Elt Ideal) (stateArr (hArr m c) (xArr m c) (wArr m c)) := by
  rw [Value.flushed3_A, Block.block_state]
  obtain ⟨e0, e1, -, -, -, -, -, -, -, -, ht⟩ := block_indices t
  funext j
  show stateFused (rowOf (iblk m c 0 t : S4096x128.Idx → Elt Ideal .f32) (j 0)) (rowOf (iblk m c 1 t : S4096x384.Idx → Elt Ideal .f32) (j 0))
      (iblk m c 2 t : S128x384.Idx → Elt Ideal .bf16) (j 1)
    = stateFused (rowOf (hArr m c) ((((cfg0.win 3).blk t).view.emb j) 0)) (rowOf (xArr m c) ((((cfg0.win 3).blk t).view.emb j) 0))
      (wArr m c) ((((cfg0.win 3).blk t).view.emb j) 1)
  have hj0 : (j 0).val < 4096 := (j 0).isLt
  have hR : ((((cfg0.win 3).blk t).view.emb j) 0).val = 4096 * t.val + (j 0).val := by
    show win0_3.index t (0 : Fin 2) * 4096 + 1 * (j 0).val = _; omega
  have hC : (((cfg0.win 3).blk t).view.emb j) 1 = j 1 :=
    Fin.ext (by show win0_3.index t (1 : Fin 2) * 128 + 1 * (j 1).val = (j 1).val; omega)
  rw [hC, wblk_eq, hblk_row m c t (j 0) _ hR, xblk_row m c t (j 0) _ hR]

/-- Point `t` writes back, to the second result, block `t` of the arrays' row-wise outputs. -/
theorem flushed_out (c : Dev nD) (t : Fin cfg0.N) :
    (dats m 0 c).flushed 4 t
      = ((cfg0.win 4).blk t).view.read (Elt Ideal) (outArr (hArr m c) (xArr m c) (wArr m c)) := by
  rw [Value.flushed4_A, Block.block_out]
  obtain ⟨-, -, e0, e1, -, -, -, -, -, -, ht⟩ := block_indices t
  funext j
  show outFused (rowOf (iblk m c 0 t : S4096x128.Idx → Elt Ideal .f32) (j 0)) (rowOf (iblk m c 1 t : S4096x384.Idx → Elt Ideal .f32) (j 0))
      (iblk m c 2 t : S128x384.Idx → Elt Ideal .bf16) (j 1)
    = outFused (rowOf (hArr m c) ((((cfg0.win 4).blk t).view.emb j) 0)) (rowOf (xArr m c) ((((cfg0.win 4).blk t).view.emb j) 0))
      (wArr m c) ((((cfg0.win 4).blk t).view.emb j) 1)
  have hj0 : (j 0).val < 4096 := (j 0).isLt
  have hR : ((((cfg0.win 4).blk t).view.emb j) 0).val = 4096 * t.val + (j 0).val := by
    show win0_4.index t (0 : Fin 2) * 4096 + 1 * (j 0).val = _; omega
  have hC : (((cfg0.win 4).blk t).view.emb j) 1 = j 1 :=
    Fin.ext (by show win0_4.index t (1 : Fin 2) * 128 + 1 * (j 1).val = (j 1).val; omega)
  rw [hC, wblk_eq, hblk_row m c t (j 0) _ hR, xblk_row m c t (j 0) _ hR]

/-! ## The blocks tile the rows -/

/-- An index lies in point `t`'s block of the first result iff each coordinate is in the block's range. -/
theorem mem_block3 (t : Fin cfg0.N) (i : S131072x128.Idx) :
    i ∈ ((cfg0.win 3).blk t).view.set
      ↔ ∀ a : Fin 2, win0_3.index t a * S4096x128.size a ≤ (i a).val ∧ (i a).val < win0_3.index t a * S4096x128.size a + S4096x128.size a := by
  show i ∈ ((View.whole main_v1_0).slice (win0_3.rect t)).set ↔ _
  rw [View.set_slice_whole, Rect.mem_set_unit]
  exact Iff.rfl

/-- The same for the second result. -/
theorem mem_block4 (t : Fin cfg0.N) (i : S131072x128.Idx) :
    i ∈ ((cfg0.win 4).blk t).view.set
      ↔ ∀ a : Fin 2, win0_4.index t a * S4096x128.size a ≤ (i a).val ∧ (i a).val < win0_4.index t a * S4096x128.size a + S4096x128.size a := by
  show i ∈ ((View.whole main_v1_1).slice (win0_4.rect t)).set ↔ _
  rw [View.set_slice_whole, Rect.mem_set_unit]
  exact Iff.rfl

/-- Row `ρ` of the first result is in the block of point `ρ / 4096`. -/
theorem cover3 (i : S131072x128.Idx) : ∃ t : Fin cfg0.N, (cfg0.win 3).flush t = true ∧ i ∈ ((cfg0.win 3).blk t).view.set := by
  have hi0 : (i 0).val < 131072 := (i 0).isLt
  have hi1 : (i 1).val < 128 := (i 1).isLt
  let t : Fin cfg0.N := ⟨(i 0).val / 4096, by show (i 0).val / 4096 < 32; omega⟩
  obtain ⟨e0, e1, -, -, -, -, -, -, -, -, -⟩ := block_indices t
  have tv : t.val = (i 0).val / 4096 := rfl
  refine ⟨t, flush0_3 t, ?_⟩
  rw [mem_block3]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- Row `ρ` of the second result is in the block of point `ρ / 4096`. -/
theorem cover4 (i : S131072x128.Idx) : ∃ t : Fin cfg0.N, (cfg0.win 4).flush t = true ∧ i ∈ ((cfg0.win 4).blk t).view.set := by
  have hi0 : (i 0).val < 131072 := (i 0).isLt
  have hi1 : (i 1).val < 128 := (i 1).isLt
  let t : Fin cfg0.N := ⟨(i 0).val / 4096, by show (i 0).val / 4096 < 32; omega⟩
  obtain ⟨-, -, e0, e1, -, -, -, -, -, -, -⟩ := block_indices t
  have tv : t.val = (i 0).val / 4096 := rfl
  refine ⟨t, flush0_4 t, ?_⟩
  rw [mem_block4]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 128 ≤ (i 1).val ∧ (i 1).val < win0_4.index t (1 : Fin 2) * 128 + 128; omega

/-! ## The two results, and the run -/

/-- The first result ends holding the row-wise new states of the launched arrays. -/
theorem final_state (c : Dev nD) :
    (dats m 0 c).arrAt 3 cfg0.N
      = stateArr (m ((c : Thread nD τ).loc main_arg0)) (m ((c : Thread nD τ).loc main_arg1)) (fun i => m ((c : Thread nD τ).loc main_arg2) i) := by
  have h := (dats m 0 c).arrAt_eq_of_cover 3 (stateArr (hArr m c) (xArr m c) (wArr m c)) (fun t _ => flushed_state m c t) cover3
  rw [h, wArr_eq]
  show stateArr (V m c main_arg0) (V m c main_arg1) _ = _
  rw [V_main_arg0, V_main_arg1]
  rfl

/-- The second result ends holding the row-wise outputs of the launched arrays. -/
theorem final_out (c : Dev nD) :
    (dats m 0 c).arrAt 4 cfg0.N
      = outArr (m ((c : Thread nD τ).loc main_arg0)) (m ((c : Thread nD τ).loc main_arg1)) (fun i => m ((c : Thread nD τ).loc main_arg2) i) := by
  have h := (dats m 0 c).arrAt_eq_of_cover 4 (outArr (hArr m c) (xArr m c) (wArr m c)) (fun t _ => flushed_out m c t) cover4
  rw [h, wArr_eq]
  show outArr (V m c main_arg0) (V m c main_arg1) _ = _
  rw [V_main_arg0, V_main_arg1]
  rfl

/-- Every weakly fair execution of the kernel's program terminates with the two results at the row-wise new states and
    outputs of the launched arrays, and the three arguments unchanged. -/
theorem run : θ_run defs (onTc (τ := τ) (main (F := Ideal))) ⟨m, fun _ => 0, ρ⟩ fun r => ∀ c : Dev nD,
      r.2.mem ((c : Thread nD τ).loc main_v1_0)
        = stateArr (m ((c : Thread nD τ).loc main_arg0)) (m ((c : Thread nD τ).loc main_arg1)) (fun i => m ((c : Thread nD τ).loc main_arg2) i)
      ∧ r.2.mem ((c : Thread nD τ).loc main_v1_1)
        = outArr (m ((c : Thread nD τ).loc main_arg0)) (m ((c : Thread nD τ).loc main_arg1)) (fun i => m ((c : Thread nD τ).loc main_arg2) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_state m c), (h c).2.1.trans (final_out m c), (h c).2.2⟩)
    (Value.run_blocks m ρ)

end Cert.GatedCell.Arrays

end
-- ==== Proof.ReferenceValue.lean ====
/-
  The reference's two results (131072×128 each), at the exact instance, as the same row-wise functions.

  The reference forms `h·W` for the whole batch, adds the input's bands, takes `tanh` of the first band and
  `1 / (1 + e^(−z))` (the literal `1.0` twice) of the other two, and combines `tanh z_c · σ z_{128+c} + h_c · (1 − σ z_{128+c})`
  (the literal `1.0` again), then `tanh` of that times the last gate. Entry `(ρ, c)` reads row `ρ` of `h` and of `x`
  only, so each result is a row-wise function: the tied-gate form of the new state, which is the fused form wherever
  the state is real, and the output of that state.
-/
import proofs.«402689_j68272800137228_3_alg».proof.Proof.Gen.ReferenceIdeal.Read
import proofs.«402689_j68272800137228_3_alg».proof.Proof.CellSpec

noncomputable section

namespace Cert.GatedCell.Reference

open Cert.ReferenceIdeal Cert.ReferenceIdeal.Read Idealize.ShloMosaic Idealize.ShloMosaic.ValueIdx Cert.GatedCell

variable (x0 : (⟨S131072x128, .f32⟩ : BufTy).Contents (Elt Ideal)) (x1 : (⟨S131072x384, .f32⟩ : BufTy).Contents (Elt Ideal))
  (x2 : (⟨S128x384, .f32⟩ : BufTy).Contents (Elt Ideal))

/-- Entry `(ρ, j)` of `h·W` is `Σ_k h[ρ,k] · W[k,j]`. -/
theorem proj_at (j : S131072x384.Idx) :
    val_main_v0 (F := Ideal) x0 x2 j = ∑ k : Fin 128, x0 (ix2 (j 0) k) * x2 (ix2 k (j 1)) := by
  rw [val_main_v0_apply]
  refine Finset.sum_congr rfl fun k _ => ?_
  have el : lidx_main_v0 j k = ix2 (j 0) k := funext fun a => by match a with | ⟨0, _⟩ => rfl | ⟨1, _⟩ => rfl
  have er : ridx_main_v0 j k = ix2 k (j 1) := funext fun a => by match a with | ⟨0, _⟩ => rfl | ⟨1, _⟩ => rfl
  exact congrArg₂ (· * ·) (congrArg x0 el) (congrArg x2 er)

/-- The first band plus its projection, at `(ρ, c)`: row `ρ`'s pre-activation at the candidate column `c`. -/
theorem cand_at (i : S131072x128.Idx) :
    val_main_v3 (F := Ideal) x0 x1 x2 i = preact (rowOf x0 (i 0)) (rowOf x1 (i 0)) x2 (candCol (i 1)) := by
  rw [val_main_v3_apply, val_main_v1_apply, val_main_v2_apply, proj_at]
  have e1 : idx_main_v1 i = ix2 (i 0) (candCol (i 1)) := funext fun a => by match a with | ⟨0, _⟩ => rfl | ⟨1, _⟩ => rfl
  rw [e1]
  rfl

/-- The last two bands plus their projection, at `(ρ, j)`: row `ρ`'s pre-activation at column `j' = 128 + j`. -/
theorem bands_at (j : S131072x256.Idx) (j' : Fin 384) (hj : j'.val = 128 + (j 1).val) :
    val_main_v7 (F := Ideal) x0 x1 x2 j = preact (rowOf x0 (j 0)) (rowOf x1 (j 0)) x2 j' := by
  rw [val_main_v7_apply, val_main_v5_apply, val_main_v6_apply, proj_at]
  have e5 : idx_main_v5 j = ix2 (j 0) j' := funext fun a => by
    match a with
    | ⟨0, _⟩ => rfl
    | ⟨1, _⟩ => exact Fin.ext hj.symm
  have e6 : idx_main_v6 j = ix2 (j 0) j' := funext fun a => by
    match a with
    | ⟨0, _⟩ => rfl
    | ⟨1, _⟩ => exact Fin.ext hj.symm
  rw [e5, e6]
  rfl

/-- The gates, at `(ρ, j)`: `σ` of row `ρ`'s pre-activation at column `j' = 128 + j`. -/
theorem gates_at (j : S131072x256.Idx) (j' : Fin 384) (hj : j'.val = 128 + (j 1).val) :
    val_main_v13 (F := Ideal) x0 x1 x2 j = Ideal.logistic (preact (rowOf x0 (j 0)) (rowOf x1 (j 0)) x2 j') := by
  rw [val_main_v13_apply, val_main_v12_apply, val_main_cst_0_apply, val_main_v11_apply, val_main_v10_apply,
    val_main_cst_apply, val_main_v9_apply, val_main_v8_apply, bands_at x0 x1 x2 j j' hj]
  exact div_one_add_exp_neg _

/-- The reference's first result at `(ρ, c)`: row `ρ`'s new state at `c`, tied-gate form. -/
theorem state_tied_at (i : S131072x128.Idx) :
    val_main_v20 (F := Ideal) x0 x1 x2 i = stateTied (rowOf x0 (i 0)) (rowOf x1 (i 0)) x2 (i 1) := by
  rw [val_main_v20_apply, val_main_v18_apply, val_main_v19_apply, val_main_v17_apply, val_main_v16_apply,
    val_main_cst_1_apply, val_main_v4_apply, val_main_v14_apply, cand_at,
    gates_at x0 x1 x2 (idx_main_v14 i) (inCol (i 1)) rfl]
  show Ideal.tanh _ * _ + x0 i * (Ideal.ofBits .f32 0x3F800000#32 - _) = _
  rw [one_f32]
  conv_lhs => rw [eq_ix2 i]
  rfl

/-- The reference's first result is the row-wise new state (fused form) wherever the state array is real. -/
theorem state_eq (hfin : ∀ i, ∃ r : ℝ, x0 i = (r : EReal)) :
    val_main_v20 (F := Ideal) x0 x1 x2 = stateArr x0 x1 x2 := by
  funext i
  rw [state_tied_at]
  exact (stateFused_eq_stateTied _ _ _ _ (hfin _)).symm

/-- The reference's second result is the row-wise output of that state. -/
theorem out_eq (hfin : ∀ i, ∃ r : ℝ, x0 i = (r : EReal)) :
    val_main_v22 (F := Ideal) x0 x1 x2 = outArr x0 x1 x2 := by
  funext i
  rw [val_main_v22_apply, val_main_v21_apply, val_main_v15_apply, state_eq x0 x1 x2 hfin,
    gates_at x0 x1 x2 (idx_main_v15 i) (outCol (i 1)) (by show 256 + (i 1).val = 128 + (128 + (i 1).val); omega)]
  rfl

end Cert.GatedCell.Reference

end
-- ==== Proof.FiniteState.lean ====
/-
  What the precondition says of the state array: every entry is a real number.

  The precondition is a conjunction of three `all(|a| < +∞)` tests, one per argument, each printed as a reduction by
  `and` over the whole array of the comparison's one-bit results. Its value being 1 makes the first test 1, hence the
  comparison 1 at every index of the state array: `max a (−a) < +∞` there (the pattern `0x7F800000` denotes `+∞`).
  An extended real with `max a (−a) < +∞` is neither `+∞` nor `−∞`, so it is real.
-/
import proofs.«402689_j68272800137228_3_alg».proof.Pre_finite_inputs
import Idealize.ShloMosaic.PureOps.Ideal
import Idealize.ShloMosaic.Lib.ReduceAll
import Idealize.ShloMosaic.Lib.ValueIdx

noncomputable section

namespace Cert.GatedCell.Finite

open Idealize.ShloMosaic Idealize.ShloMosaic.ValueIdx

/-- The single-precision pattern `0x7F800000` (exponent all ones, significand 0, sign 0) denotes `+∞`. -/
theorem inf_f32 : Ideal.ofBits .f32 0x7F800000#32 = ⊤ := by
  simp [Ideal.ofBits, Ideal.ieee]

/-- An extended real whose absolute value `max a (−a)` is below `+∞` is real. -/
theorem real_of_abs_lt_top (a : EReal) (h : max a (-a) < ⊤) : ∃ r : ℝ, a = (r : EReal) := by
  induction a using EReal.rec with
  | bot => simp at h
  | coe r => exact ⟨r, rfl⟩
  | top => simp at h

/-- The scalar shape has one index. -/
instance : Subsingleton Cert.Pre_finite_inputs.S_.Idx := ⟨fun _ _ => funext fun d => d.elim0⟩

/-- Under the precondition every entry of the first argument (the state array) is real. -/
theorem state_real [Cert.Pre_finite_inputs.Facts]
    (a0 : FVec Ideal Cert.Pre_finite_inputs.S131072x128 .f32) (a1 : FVec Ideal Cert.Pre_finite_inputs.S131072x384 .f32)
    (a2 : FVec Ideal Cert.Pre_finite_inputs.S128x384 .f32)
    (h : Cert.Pre_finite_inputs.fn (F := Ideal) a0 a1 a2 = fun _ => 1#1) (i : Cert.Pre_finite_inputs.S131072x128.Idx) :
    ∃ r : ℝ, a0 i = (r : EReal) := by
  have h0 := congrFun h ix0
  unfold Cert.Pre_finite_inputs.fn at h0
  dsimp only at h0
  have h1 := (IntOp.andi_eq_one.1 h0).1
  have h2 := (IntOp.andi_eq_one.1 h1).1
  have h3 := Host.reduce_andi_all _ _ _ _ ix0 h2 i
  have h4 : Ideal.cmp .olt (max (a0 i) (-(a0 i))) (Ideal.ofBits .f32 0x7F800000#32) = 1#1 := h3
  rw [inf_f32] at h4
  refine real_of_abs_lt_top (a0 i) ?_
  by_contra hn
  simp [Ideal.cmp, hn] at h4

end Cert.GatedCell.Finite

end
-- ==== Proof.lean ====
/-
  A single step of a gated recurrent cell on 131072 rows: a tiled kernel against its array-at-once reference.

  With state `h` (131072×128), input `x` (131072×384) and weights `W` (128×384), row `ρ` has the pre-activation
  `z_j = x[ρ,j] + Σ_k h[ρ,k]·W[k,j]`, the candidate `tanh z_c`, the gates `σ z_{128+c}` and `σ z_{256+c}`, and
    new state  h'[ρ,c] = h[ρ,c] + σ z_{128+c} · (tanh z_c − h[ρ,c])          (the kernel's fused form)
                       = tanh z_c · σ z_{128+c} + h[ρ,c] · (1 − σ z_{128+c})  (the reference's tied-gate form)
    output     y[ρ,c]  = tanh h'[ρ,c] · σ z_{256+c}.
  Every row is computed from that row of `h` and `x` and from `W` alone.

  The kernel walks the rows in 32 blocks of 4096, each in four chunks of 1024, rounding `h` and `W` to bf16 on the
  way into the matrix product; over the extended reals that rounding is the identity and the product into a zero
  accumulator is the plain sum, so each chunk's stores are the fused form on the chunk's rows, the chunks tile the
  block and the blocks tile the arrays. The reference computes the tied-gate form with `σ` spelt `1/(1+e^(−z))`.
  `tanh` and `σ` are real at every extended real, so the two forms agree as soon as `h[ρ,c]` is real — which is what
  the precondition (all inputs finite) gives; finiteness of `x` and `W` is not needed.

  The three frames: the two kernel programs' are the generated frame certificates; the reference's is its generated
  run with the results dropped. The idealization rewrote nothing, so it preserves trivially.
-/
import proofs.«402689_j68272800137228_3_alg».proof.Defs
import proofs.«402689_j68272800137228_3_alg».proof.Proof.Gen.Kernel
import proofs.«402689_j68272800137228_3_alg».proof.Proof.Gen.Kernel.Skeleton
import proofs.«402689_j68272800137228_3_alg».proof.Proof.Gen.Kernel.Loops
import proofs.«402689_j68272800137228_3_alg».proof.Proof.Gen.Kernel.Launch
import proofs.«402689_j68272800137228_3_alg».proof.Proof.Gen.Kernel.Points
import proofs.«402689_j68272800137228_3_alg».proof.Proof.Gen.Kernel.Frame
import proofs.«402689_j68272800137228_3_alg».proof.Proof.Gen.KernelIdeal
import proofs.«402689_j68272800137228_3_alg».proof.Proof.Gen.KernelIdeal.Skeleton
import proofs.«402689_j68272800137228_3_alg».proof.Proof.Gen.KernelIdeal.Loops
import proofs.«402689_j68272800137228_3_alg».proof.Proof.Gen.KernelIdeal.Launch
import proofs.«402689_j68272800137228_3_alg».proof.Proof.Gen.KernelIdeal.Points
import proofs.«402689_j68272800137228_3_alg».proof.Proof.Gen.KernelIdeal.Frame
import proofs.«402689_j68272800137228_3_alg».proof.Proof.Gen.KernelIdeal.Value
import proofs.«402689_j68272800137228_3_alg».proof.Proof.Gen.ReferenceIdeal.Run
import proofs.«402689_j68272800137228_3_alg».proof.Proof.Gen.ReferenceIdeal.Read
import proofs.«402689_j68272800137228_3_alg».proof.Proof.Gen.ReferenceIdeal
import proofs.«402689_j68272800137228_3_alg».proof.Proof.Gen.Pre_finite_inputs
import proofs.«402689_j68272800137228_3_alg».proof.Proof.CellSpec
import proofs.«402689_j68272800137228_3_alg».proof.Proof.KernelArray
import proofs.«402689_j68272800137228_3_alg».proof.Proof.ReferenceValue
import proofs.«402689_j68272800137228_3_alg».proof.Proof.FiniteState
import Idealize.ShloMosaic.Adequacy
import Idealize.ShloMosaic.Init

noncomputable section

namespace Cert.Proof

open Idealize.ShloMosaic Idealize.SL.Sem Cert.GatedCell

/-- The word-level kernel terminates without fault and leaves its arguments unchanged. -/
theorem frame_kernel : Cert.frame_Kernel :=
  fun m ρ _ => Cert.Kernel.Gen.frame m ρ

/-- So does the kernel read over the extended reals. -/
theorem frame_kernel_ideal : Cert.frame_KernelIdeal :=
  fun m ρ _ => Cert.KernelIdeal.Gen.frame m ρ

/-- And the reference: its run, with the two results dropped. -/
theorem frame_reference_ideal : Cert.frame_ReferenceIdeal :=
  fun m ρ _ => (θ_run Cert.ReferenceIdeal.defs _ _).mono (fun _ h c => (h c).2.2)
    (Cert.ReferenceIdeal.Value.run (F := Ideal) m ρ)

/-- From memories that agree on `h`, `x`, `W` with `h` finite, both programs end with the row-wise new states in
    their first result and the row-wise outputs in their second: the kernel by its blocks, the reference by the law
    between the fused and the tied-gate form at a real `h[ρ,c]`. -/
theorem algebraic : Cert.algebraic_KernelIdeal_ReferenceIdeal := by
  intro m ρ m' ρ' hpre hagree
  have hfin : ∀ (c : Dev Cert.KernelIdeal.nD) i, ∃ r : ℝ,
      m ((c.tc : Thread Cert.KernelIdeal.nD Cert.KernelIdeal.τ).loc Cert.KernelIdeal.main_arg0) i = (r : EReal) :=
    fun c i => Finite.state_real _ _ _ (hpre c) i
  refine ⟨_, _, Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v20_eq, (hagree c).1, (hagree c).2.1, (hagree c).2.2]
    exact Reference.state_eq _ _ _ (hfin c)
  · rw [Cert.ReferenceIdeal.Read.val_main_v22_eq, (hagree c).1, (hagree c).2.1, (hagree c).2.2]
    exact Reference.out_eq _ _ _ (hfin c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
